-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S8x32768x128 : Shape := ⟨3, ![8, 32768, 128]⟩
abbrev S128x128 : Shape := ⟨2, ![128, 128]⟩
abbrev S1x128 : Shape := ⟨2, ![1, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S8x32768x128 : S_.BroadcastsInDim S8x32768x128 (![] : Fin 0 → Fin S8x32768x128.rank)
  reducesTo_S8x32768x128_S_d0_1_2 : S8x32768x128.ReducesTo [0, 1, 2] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part4 {F : FTy → Type} [FloatOps F] (main_arg14 : FVec F S1x128 .f32) (main_v63 : IVec S_ 1) (main_v67 : IVec S_ 1) : IVec S_ 1 :=
  let main_v68 : IVec S_ 1 := andi main_v63 main_v67
  let main_v69 : FVec F S1x128 .f32 := Host.absf main_arg14
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  main_v73

def fn_part3 {F : FTy → Type} [FloatOps F] (main_arg11 : FVec F S1x128 .f32) (main_arg12 : FVec F S1x128 .f32) (main_arg13 : FVec F S1x128 .f32) (main_arg14 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1x128 .f32 := Host.absf main_arg12
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1x128 .f32 := Host.absf main_arg13
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg14 main_v63 main_v67

def fn_part2 {F : FTy → Type} [FloatOps F] (main_arg7 : FVec F S128x128 .f32) (main_arg8 : FVec F S128x128 .f32) (main_arg9 : FVec F S128x128 .f32) (main_arg10 : FVec F S128x128 .f32) (main_arg11 : FVec F S1x128 .f32) (main_arg12 : FVec F S1x128 .f32) (main_arg13 : FVec F S1x128 .f32) (main_arg14 : FVec F S1x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S1x128 .f32) (main_arg12 : FVec F S1x128 .f32) (main_arg13 : FVec F S1x128 .f32) (main_arg14 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x128 .f32) (main_arg1 : FVec F S8x32768x128 .f32) (main_arg2 : FVec F S8x32768x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S1x128 .f32) (main_arg12 : FVec F S1x128 .f32) (main_arg13 : FVec F S1x128 .f32) (main_arg14 : FVec F S1x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S8x32768x128 .f32 := Host.absf main_arg1
  let main_cst_0 : FVec F S_ .f32 := constant S_ .f32 0x7F800000#32
  let main_v5 : FVec F S8x32768x128 .f32 := broadcastInDim S8x32768x128 ![] bcast_S_S8x32768x128 main_cst_0
  let main_v6 : IVec S8x32768x128 1 := cmpf .olt main_v4 main_v5
  let main_c_1 : IVec S_ 1 := constantI S_ 1 1#1
  let main_v7 : IVec S_ 1 := (fun x v => Host.reduce IntOp.andi x v reducesTo_S8x32768x128_S_d0_1_2 h_S_) main_v6 main_c_1
  let main_v8 : IVec S_ 1 := andi main_v3 main_v7
  let main_v9 : FVec F S8x32768x128 .f32 := Host.absf main_arg2
  let main_cst_2 : FVec F S_ .f32 := constant S_ .f32 0x7F800000#32
  let main_v10 : FVec F S8x32768x128 .f32 := broadcastInDim S8x32768x128 ![] bcast_S_S8x32768x128 main_cst_2
  let main_v11 : IVec S8x32768x128 1 := cmpf .olt main_v9 main_v10
  let main_c_3 : IVec S_ 1 := constantI S_ 1 1#1
  let main_v12 : IVec S_ 1 := (fun x v => Host.reduce IntOp.andi x v reducesTo_S8x32768x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x128 : Shape := ⟨2, ![32768, 128]⟩
abbrev S8x32768x128 : Shape := ⟨3, ![8, 32768, 128]⟩
abbrev S128x128 : Shape := ⟨2, ![128, 128]⟩
abbrev S1x128 : Shape := ⟨2, ![1, 128]⟩
abbrev S1024x128 : Shape := ⟨2, ![1024, 128]⟩
abbrev S8x1024x128 : Shape := ⟨3, ![8, 1024, 128]⟩
abbrev S1x1024x128 : Shape := ⟨3, ![1, 1024, 128]⟩

abbrev nBuf : Space → Nat
  | .hbm => 25
  | .vmem => 22
  | .smem => 0
  | _ => 0

abbrev bufTy : (tb : Table) → Fin (tcTables nBuf tb) → BufTy
  | .hbm, ⟨0, _⟩ => ⟨S32768x128, .f32⟩
  | .hbm, ⟨1, _⟩ => ⟨S8x32768x128, .f32⟩
  | .hbm, ⟨2, _⟩ => ⟨S8x32768x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S128x128, .bf16⟩
  | .hbm, ⟨16, _⟩ => ⟨S128x128, .bf16⟩
  | .hbm, ⟨17, _⟩ => ⟨S128x128, .bf16⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S128x128, .bf16⟩
  | .hbm, ⟨23, _⟩ => ⟨S32768x128, .f32⟩
  | .hbm, ⟨24, _⟩ => ⟨S32768x128, .f32⟩
  | .local _ .vmem, ⟨0, _⟩ => ⟨S1024x128, .f32⟩
  | .local _ .vmem, ⟨1, _⟩ => ⟨S1024x128, .f32⟩
  | .local _ .vmem, ⟨2, _⟩ => ⟨S8x1024x128, .f32⟩
  | .local _ .vmem, ⟨3, _⟩ => ⟨S8x1024x128, .f32⟩
  | .local _ .vmem, ⟨4, _⟩ => ⟨S8x1024x128, .f32⟩
  | .local _ .vmem, ⟨5, _⟩ => ⟨S8x1024x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  inb_S8x1024x128_S1x1024x128_1_0_0 : ∀ a, (![1, 0, 0] : Fin 3 → Nat) a + S1x1024x128.size a ≤ S8x1024x128.size a
  inb_S8x1024x128_S1x1024x128_2_0_0 : ∀ a, (![2, 0, 0] : Fin 3 → Nat) a + S1x1024x128.size a ≤ S8x1024x128.size a
  inb_S8x1024x128_S1x1024x128_3_0_0 : ∀ a, (![3, 0, 0] : Fin 3 → Nat) a + S1x1024x128.size a ≤ S8x1024x128.size a
  inb_S8x1024x128_S1x1024x128_4_0_0 : ∀ a, (![4, 0, 0] : Fin 3 → Nat) a + S1x1024x128.size a ≤ S8x1024x128.size a
  inb_S8x1024x128_S1x1024x128_5_0_0 : ∀ a, (![5, 0, 0] : Fin 3 → Nat) a + S1x1024x128.size a ≤ S8x1024x128.size a
  inb_S8x1024x128_S1x1024x128_6_0_0 : ∀ a, (![6, 0, 0] : Fin 3 → Nat) a + S1x1024x128.size a ≤ S8x1024x128.size a
  inb_S8x1024x128_S1x1024x128_7_0_0 : ∀ a, (![7, 0, 0] : Fin 3 → Nat) a + S1x1024x128.size a ≤ S8x1024x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S8x32768x128.size a
  hwx0_1 : ∀ i : grid0.Coords, EltTy.bits .f32 = 32 ∨ (Rect.block (s := S8x32768x128) S8x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x128.size a ≤ S8x32768x128.size a
  hwx0_2 : ∀ i : grid0.Coords, EltTy.bits .f32 = 32 ∨ (Rect.block (s := S8x32768x128) S8x1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S32768x128.size a
  hwx0_15 : ∀ i : grid0.Coords, EltTy.bits .f32 = 32 ∨ (Rect.block (s := S32768x128) S1024x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S32768x128.size a
  hwx0_16 : ∀ i : grid0.Coords, EltTy.bits .f32 = 32 ∨ (Rect.block (s := S32768x128) S1024x128.size (cc0_transform_16 i) (hinb0_16 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8_0) S1024x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v8_1) S1024x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32768x128 : Shape := ⟨2, ![32768, 128]⟩
abbrev S8x32768x128 : Shape := ⟨3, ![8, 32768, 128]⟩
abbrev S128x128 : Shape := ⟨2, ![128, 128]⟩
abbrev S1x128 : Shape := ⟨2, ![1, 128]⟩
abbrev S_ : Shape := ⟨0, ![]⟩
abbrev S1x32768x128 : Shape := ⟨3, ![1, 32768, 128]⟩
abbrev S1x1x128 : Shape := ⟨3, ![1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S8x32768x128, .f32⟩
  | .hbm, ⟨2, _⟩ => ⟨S8x32768x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S32768x128, .f32⟩
  | .hbm, ⟨17, _⟩ => ⟨S32768x128, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S32768x128, .f32⟩
  | .hbm, ⟨24, _⟩ => ⟨S_, .f32⟩
  | .hbm, ⟨25, _⟩ => ⟨S32768x128, .f32⟩
  | .hbm, ⟨26, _⟩ => ⟨S32768x128, .f32⟩
  | .hbm, ⟨27, _⟩ => ⟨S_, .f32⟩
  | .hbm, ⟨28, _⟩ => ⟨S32768x128, .f32⟩
  | .hbm, ⟨29, _⟩ => ⟨S32768x128, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S32768x128, .f32⟩
  | .hbm, ⟨35, _⟩ => ⟨S32768x128, .f32⟩
  | .hbm, ⟨36, _⟩ => ⟨S32768x128, .f32⟩
  | .hbm, ⟨37, _⟩ => ⟨S_, .f32⟩
  | .hbm, ⟨38, _⟩ => ⟨S32768x128, .f32⟩
  | .hbm, ⟨39, _⟩ => ⟨S32768x128, .f32⟩
  | .hbm, ⟨40, _⟩ => ⟨S_, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S1x32768x128, .f32⟩
  | .hbm, ⟨45, _⟩ => ⟨S8x32768x128, .f32⟩
  | .hbm, ⟨46, _⟩ => ⟨S8x32768x128, .f32⟩
  | .hbm, ⟨47, _⟩ => ⟨S8x32768x128, .f32⟩
  | .hbm, ⟨48, _⟩ => ⟨S1x1x128, .f32⟩
  | .hbm, ⟨49, _⟩ => ⟨S8x32768x128, .f32⟩
  | .hbm, ⟨50, _⟩ => ⟨S8x32768x128, .f32⟩
  | .hbm, ⟨51, _⟩ => ⟨S8x32768x128, .f32⟩
  | .hbm, ⟨52, _⟩ => ⟨S8x32768x128, .f32⟩
  | .hbm, ⟨53, _⟩ => ⟨S_, .f32⟩
  | .hbm, ⟨54, _⟩ => ⟨S8x32768x128, .f32⟩
  | .hbm, ⟨55, _⟩ => ⟨S8x32768x128, .f32⟩
  | .hbm, ⟨56, _⟩ => ⟨S_, .f32⟩
  | .hbm, ⟨57, _⟩ => ⟨S8x32768x128, .f32⟩
  | .hbm, ⟨58, _⟩ => ⟨S8x32768x128, .f32⟩
  | .hbm, ⟨59, _⟩ => ⟨S32768x128, .f32⟩
  | .hbm, ⟨60, _⟩ => ⟨S32768x128, .f32⟩
  | .hbm, ⟨61, _⟩ => ⟨S32768x128, .f32⟩
  | .hbm, ⟨62, _⟩ => ⟨S32768x128, .f32⟩
  | .hbm, ⟨63, _⟩ => ⟨S32768x128, .f32⟩
  | .hbm, ⟨64, _⟩ => ⟨S32768x128, .f32⟩
  | .hbm, ⟨65, _⟩ => ⟨S32768x128, .f32⟩
  | .hbm, ⟨66, _⟩ => ⟨S8x32768x128, .f32⟩
  | .hbm, ⟨67, _⟩ => ⟨S_, .f32⟩
  | .hbm, ⟨68, _⟩ => ⟨S32768x128, .f32⟩
  | .hbm, ⟨69, _⟩ => ⟨S32768x128, .f32⟩
  | .hbm, ⟨70, _⟩ => ⟨S32768x128, .f32⟩
  | .hbm, ⟨71, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  reducesTo_S8x32768x128_S32768x128_d0 : S8x32768x128.ReducesTo [0] S32768x128
  h_S_ : 0 < S_.numel
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S32768x128_S1x32768x128_1_2 : S32768x128.BroadcastsInDim S1x32768x128 (![1, 2] : Fin 2 → Fin S1x32768x128.rank)
  bcast_S1x32768x128_S8x32768x128_0_1_2 : S1x32768x128.BroadcastsInDim S8x32768x128 (![0, 1, 2] : Fin 3 → Fin S8x32768x128.rank)
  bcast_S1x128_S1x1x128_1_2 : S1x128.BroadcastsInDim S1x1x128 (![1, 2] : Fin 2 → Fin S1x1x128.rank)
  bcast_S1x1x128_S8x32768x128_0_1_2 : S1x1x128.BroadcastsInDim S8x32768x128 (![0, 1, 2] : Fin 3 → Fin S8x32768x128.rank)
  bcast_S_S8x32768x128 : S_.BroadcastsInDim S8x32768x128 (![] : Fin 0 → Fin S8x32768x128.rank)
  dot_S32768x128_S128x128_S32768x128_1_0_0_1_n_n_wf : DotDims.WF S32768x128 S128x128 S32768x128 [1] [0] [0] [1] [] []
  dot_S8x32768x128_S128x128_S8x32768x128_2_0_01_1_n_n_wf : DotDims.WF S8x32768x128 S128x128 S8x32768x128 [2] [0] [0, 1] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S8x32768x128_S128x128_S8x32768x128_2_0_01_1_n_n : DotDims S8x32768x128 S128x128 S8x32768x128 where
  lhsContracting := [2]
  rhsContracting := [0]
  lhsNonContracting := [0, 1]
  rhsNonContracting := [1]
  lhsBatch := []
  rhsBatch := []
  wf := dot_S8x32768x128_S128x128_S8x32768x128_2_0_01_1_n_n_wf

class Facts : Prop extends Facts₀ where

variable [Facts]
-- ==== Proof.Spec.lean ====
/-
  The child-sum tree-LSTM cell, one entry at a time, over the extended reals.

  A node has an input row  a  of 128 numbers and eight children, child  n  with a hidden row  hc n  of 128 numbers
  and a memory entry  cc n  at the column looked at. With  s = Σ_n hc n  the summed child state, the three gates
  and the candidate at column  c  are

      i = σ( a·W_i[:,c] + s·U_i[:,c] + b_i[c] )        o = σ( a·W_o[:,c] + s·U_o[:,c] + b_o[c] )
      u = tanh( a·W_u[:,c] + s·U_u[:,c] + b_u[c] )      f_n = σ( a·W_f[:,c] + (hc n)·U_f[:,c] + b_f[c] )

  and the cell's two results are   c' = i · u + Σ_n f_n · cc n   and   h' = o · tanh c' .  Every sum is a finite sum
  of the extended reals (addition there is commutative and associative, so no order is meant), σ is the logistic
  function  1 / (1 + e^{-x})  with its limits 0 and 1 at the infinities.
-/
import Idealize.ShloMosaic.PureOps.Ideal.Laws
import Idealize.ShloMosaic.Lib.ValueIdx

noncomputable section

open scoped BigOperators

namespace Cert.TreeLstm

open Idealize.ShloMosaic Idealize.ShloMosaic.ValueIdx

/-- A 128 × 128 weight matrix, a 1 × 128 bias row, the [32768, 128] input and the [8, 32768, 128] child arrays. -/
abbrev Mat := (⟨2, ![128, 128]⟩ : Shape).Idx → EReal
abbrev Row := (⟨2, ![1, 128]⟩ : Shape).Idx → EReal
abbrev Arr2 := (⟨2, ![32768, 128]⟩ : Shape).Idx → EReal
abbrev Arr3 := (⟨3, ![8, 32768, 128]⟩ : Shape).Idx → EReal

/-- A row against column  c  of a weight matrix:  Σ_k a_k · W_{k,c} . -/
def rowDot (a : Fin 128 → EReal) (W : Mat) (c : Fin 128) : EReal := ∑ k : Fin 128, a k * W (ix2 k c)

/-- The summed child state:  s_k = Σ_n (hc n)_k . -/
def childSum (hc : Fin 8 → Fin 128 → EReal) (k : Fin 128) : EReal := ∑ n : Fin 8, hc n k

/-- What a gate sees at column  c :  (a·W[:,c] + g·U[:,c]) + b[c] . -/
def gatePre (a g : Fin 128 → EReal) (W U : Mat) (b : Row) (c : Fin 128) : EReal :=
  (rowDot a W c + rowDot g U c) + b (ix2 (0 : Fin 1) c)

/-- The new memory entry  c' = i · u + Σ_n f_n · cc n . -/
def cellC (a : Fin 128 → EReal) (hc : Fin 8 → Fin 128 → EReal) (cc : Fin 8 → EReal)
    (Wi Wf Wu Ui Uf Uu : Mat) (bi bf bu : Row) (c : Fin 128) : EReal :=
  Ideal.logistic (gatePre a (childSum hc) Wi Ui bi c) * Ideal.tanh (gatePre a (childSum hc) Wu Uu bu c)
    + ∑ n : Fin 8, Ideal.logistic (gatePre a (hc n) Wf Uf bf c) * cc n

/-- The new hidden entry  h' = o · tanh c' . -/
def cellH (a : Fin 128 → EReal) (hc : Fin 8 → Fin 128 → EReal) (cc : Fin 8 → EReal)
    (Wi Wf Wo Wu Ui Uf Uo Uu : Mat) (bi bf bo bu : Row) (c : Fin 128) : EReal :=
  Ideal.logistic (gatePre a (childSum hc) Wo Uo bo c)
    * Ideal.tanh (cellC a hc cc Wi Wf Wu Ui Uf Uu bi bf bu c)

/-- The whole new-memory array: entry (r, c) is the cell of row r of the input and of the children. -/
def memArr (x : Arr2) (h C : Arr3) (Wi Wf Wu Ui Uf Uu : Mat) (bi bf bu : Row) : Arr2 := fun j =>
  cellC (fun k => x (ix2 (j 0) k)) (fun n k => h (ix3 n (j 0) k)) (fun n => C (ix3 n (j 0) (j 1)))
    Wi Wf Wu Ui Uf Uu bi bf bu (j 1)

/-- The whole new-hidden array. -/
def hidArr (x : Arr2) (h C : Arr3) (Wi Wf Wo Wu Ui Uf Uo Uu : Mat) (bi bf bo bu : Row) : Arr2 := fun j =>
  cellH (fun k => x (ix2 (j 0) k)) (fun n k => h (ix3 n (j 0) k)) (fun n => C (ix3 n (j 0) (j 1)))
    Wi Wf Wo Wu Ui Uf Uo Uu bi bf bo bu (j 1)

/-- The word of 1.0 is the number one. -/
theorem ofBits_one_f32 : Ideal.ofBits .f32 0x3F800000#32 = 1 := by
  simp [Ideal.ofBits, Ideal.ieee, -EReal.coe_mul]; norm_num

/-- The logistic function as either program may spell it out:  1 / (1 + e^{-x}) , the one being the word of 1.0. -/
theorem logistic_spelt (x : EReal) :
    Ideal.div (Ideal.ofBits .f32 0x3F800000#32) (Ideal.ofBits .f32 0x3F800000#32 + Ideal.exp (-x)) = Ideal.logistic x := by
  rw [ofBits_one_f32]; rfl

/-- Eight terms added one after the other onto zero are their sum. -/
theorem fold8 (f : Fin 8 → EReal) :
    (((((((0 + f 0) + f 1) + f 2) + f 3) + f 4) + f 5) + f 6) + f 7 = ∑ n : Fin 8, f n := by
  rw [Fin.sum_univ_eight, zero_add]

end Cert.TreeLstm

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Tile.lean ====
/-
  One tile of the tree-LSTM kernel, read at an entry.

  A grid point works on 1024 consecutive rows: the tile  x0  of the input, the tiles  x1 , x2  of the eight children's
  hidden rows and memory rows, the eight weight matrices and the four bias rows whole. Every matrix product of the
  body is a [1024,128] × [128,128] product into zeros, so at the entry (p, q) it is the row p against column q of the
  matrix (`tile_dot`); a bias row stretched over the tile reads its entry q; a child's slab [1,1024,128] cast to
  [1024,128] reads the slab at (0, p, q). Narrowing to bf16 changes nothing on the extended reals. Reading the body's
  two stored values this way, entry (p, q) of the stored memory block is the cell's new memory entry `cellC` of row p
  of the tiles, and of the stored hidden block its new hidden entry `cellH`; the eight terms the body adds one after
  the other onto zero (the summed child state, and the forget-gated memories) are the sums over the eight children.
-/
import proofs.«139234_j7456063226111_1_alg».proof.Proof.Gen.KernelIdeal.Frame
import proofs.«139234_j7456063226111_1_alg».proof.Proof.Spec
import proofs.«139234_j7456063226111_1_alg».proof.Proof.LibDense
import Idealize.ShloMosaic.Lib.ValueLayout
import Idealize.ShloMosaic.Lib.Pipeline.Value

noncomputable section

open scoped BigOperators

namespace Cert.TreeLstm.Tile

open Cert.KernelIdeal Cert.KernelIdeal.Gen Idealize.ShloMosaic Idealize.ShloMosaic.ValueIdx Cert.TreeLstm

/-- The zero offsets of a whole-block access, however they are spelt. -/
theorem hz2 : (![0, 0] : Fin 2 → Nat) = fun _ => 0 := funext fun a => by fin_cases a <;> rfl

/-- The logistic function and the hyperbolic tangent act entry by entry. -/
theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-- A tile's product with a weight matrix into zeros, at (p, q): row p against column q. -/
theorem tile_dot (a : FVec Ideal S1024x128 .bf16) (w : FVec Ideal S128x128 .bf16) (p : Fin 1024) (q : Fin 128) :
    matmul dot_S1024x128_S128x128_S1024x128_1_0_0_1_n_n none a w (constant S1024x128 .f32 0x00000000#32) (ix2 p q) = rowDot (fun k => a (ix2 p k)) w q :=
  Cert.Dense.matmul_zero_plain_apply dot_S1024x128_S128x128_S1024x128_1_0_0_1_n_n rfl rfl rfl rfl rfl rfl none a w p q

/-- A child's slab of the hidden or memory tile, [1, 1024, 128], cast to [1024, 128], at (p, q). -/
theorem slab_apply (v : Vec Ideal S1x1024x128 .f32) (p : Fin 1024) (q : Fin 128) :
    (shapeCast S1024x128 v shapeCasts_S1x1024x128_S1024x128 : FVec Ideal S1024x128 .f32) (ix2 p q) = v (ix3 (0 : Fin 1) p q) :=
  shapeCast_1ab_ab_apply v shapeCasts_S1x1024x128_S1024x128 p q

/-- A bias row stretched over the tile, at (p, q). -/
theorem bias_apply (b : Vec Ideal S1x128 .f32) (p : Fin 1024) (q : Fin 128) :
    (broadcastTo S1024x128 b broadcasts_S1x128_S1024x128 : FVec Ideal S1024x128 .f32) (ix2 p q) = b (ix2 (0 : Fin 1) q) :=
  broadcastTo_1b_ab_apply b broadcasts_S1x128_S1024x128 p q

/-- A weight matrix cast to its own shape is itself. -/
theorem weight_cast (w : Vec Ideal S128x128 .bf16) :
    (shapeCast S128x128 w shapeCasts_S128x128_S128x128 : FVec Ideal S128x128 .bf16) = w :=
  shapeCast_self w shapeCasts_S128x128_S128x128

/-- Child n's slab loaded from the eight-child tile: the load at offset (n, 0, 0) reads the tile at (n, p, q). -/
theorem child_ld (x : Vec Ideal S8x1024x128 .f32) (o : Nat) (ho : o < 8)
    (inb : ∀ a, (![o, 0, 0] : Fin 3 → Nat) a + S1x1024x128.size a ≤ S8x1024x128.size a) (p : Fin 1024) (q : Fin 128) :
    View.ld x (Rect.unit (s := S8x1024x128) ![o, 0, 0] S1x1024x128.size inb) (ix3 (0 : Fin 1) p q) = x (ix3 ⟨o, ho⟩ p q) := by
  show x _ = x _
  refine congrArg x (funext fun a => Fin.ext ?_)
  match a with
  | ⟨0, _⟩ => show o + 1 * 0 = o; omega
  | ⟨1, _⟩ => show 0 + 1 * p.val = p.val; omega
  | ⟨2, _⟩ => show 0 + 1 * q.val = q.val; omega

/-! ## The body's values, one at a time -/

section payloads

variable (p : Fin 1024) (q k : Fin 128)

/-- The input tile narrowed. -/
theorem pay3_apply (v0 : Vec Ideal S1024x128 .f32) : k0_pay3 v0 (ix2 p k) = v0 (ix2 p k) := rfl

/-- The eight children's hidden slabs added one after the other onto zero, narrowed. -/
theorem pay4_apply (v3 v6 v9 v12 v15 v18 v21 v24 : Vec Ideal S1x1024x128 .f32) :
    k0_pay4 v3 v6 v9 v12 v15 v18 v21 v24 (ix2 p k)
      = (((((((0 + v3 (ix3 (0 : Fin 1) p k)) + v6 (ix3 (0 : Fin 1) p k)) + v9 (ix3 (0 : Fin 1) p k)) + v12 (ix3 (0 : Fin 1) p k))
          + v15 (ix3 (0 : Fin 1) p k)) + v18 (ix3 (0 : Fin 1) p k)) + v21 (ix3 (0 : Fin 1) p k)) + v24 (ix3 (0 : Fin 1) p k) := by
  unfold k0_pay4
  simp only [truncf_apply, addf_apply, slab_apply, broadcast_apply]
  show (((((((Ideal.ofBits .f32 0x00000000#32 + _) + _) + _) + _) + _) + _) + _) + _ = _
  rw [Ideal.ofBits_zero_f32]

/-- The first weight matrix as loaded. -/
theorem pay5_eq (v28 : Vec Ideal S128x128 .bf16) : k0_pay5 v28 = v28 := weight_cast v28

/-- The input row against the forget weights. -/
theorem pay6_apply (v1 : FVec Ideal S1024x128 .bf16) (v48 : Vec Ideal S128x128 .bf16) :
    k0_pay6 v1 v48 (ix2 p q) = rowDot (fun k => v1 (ix2 p k)) v48 q := by
  unfold k0_pay6
  rw [weight_cast, tile_dot]

/-- The input gate. -/
theorem pay7_apply (v1 v27 : FVec Ideal S1024x128 .bf16) (v29 : FVec Ideal S128x128 .bf16) (v31 : Vec Ideal S128x128 .bf16)
    (v35 : Vec Ideal S1x128 .f32) :
    k0_pay7 v1 v27 v29 v31 v35 (ix2 p q)
      = Ideal.logistic (gatePre (fun k => v1 (ix2 p k)) (fun k => v27 (ix2 p k)) v29 v31 v35 q) := by
  unfold k0_pay7
  rw [logistic_apply, addf_apply, addf_apply, weight_cast, tile_dot, tile_dot, bias_apply]
  rfl

/-- The output gate. -/
theorem pay8_apply (v1 v27 : FVec Ideal S1024x128 .bf16) (v38 v41 : Vec Ideal S128x128 .bf16) (v45 : Vec Ideal S1x128 .f32) :
    k0_pay8 v1 v27 v38 v41 v45 (ix2 p q)
      = Ideal.logistic (gatePre (fun k => v1 (ix2 p k)) (fun k => v27 (ix2 p k)) v38 v41 v45 q) := by
  unfold k0_pay8
  rw [logistic_apply, addf_apply, addf_apply, weight_cast, weight_cast, tile_dot, tile_dot, bias_apply]
  rfl

/-- The candidate. -/
theorem pay9_apply (v1 v27 : FVec Ideal S1024x128 .bf16) (v51 v54 : Vec Ideal S128x128 .bf16) (v58 : Vec Ideal S1x128 .f32) :
    k0_pay9 v1 v27 v51 v54 v58 (ix2 p q)
      = Ideal.tanh (gatePre (fun k => v1 (ix2 p k)) (fun k => v27 (ix2 p k)) v51 v54 v58 q) := by
  unfold k0_pay9
  rw [tanh_apply, addf_apply, addf_apply, weight_cast, weight_cast, tile_dot, tile_dot, bias_apply]
  rfl

/-- One child's forget gate as the body spells it: the input's part  fx , the child's hidden rows  a  against the
    forget weights, the bias. -/
theorem forget_apply (fx : FVec Ideal S1024x128 .f32) (a : FVec Ideal S1024x128 .bf16) (uf : Vec Ideal S128x128 .bf16)
    (bf : Vec Ideal S1x128 .f32) :
    logistic (addf (addf fx (matmul dot_S1024x128_S128x128_S1024x128_1_0_0_1_n_n none a (shapeCast S128x128 uf shapeCasts_S128x128_S128x128 : FVec Ideal S128x128 .bf16) (constant S1024x128 .f32 0x00000000#32)))
        (broadcastTo S1024x128 bf broadcasts_S1x128_S1024x128)) (ix2 p q)
      = Ideal.logistic ((fx (ix2 p q) + rowDot (fun k => a (ix2 p k)) uf q) + bf (ix2 (0 : Fin 1) q)) := by
  rw [logistic_apply, addf_apply, addf_apply, weight_cast, tile_dot, bias_apply]

/-- A child's hidden slab narrowed, at (p, k). -/
theorem narrow_slab_apply (v : Vec Ideal S1x1024x128 .f32) :
    (truncf .bf16 (shapeCast S1024x128 v shapeCasts_S1x1024x128_S1024x128 : FVec Ideal S1024x128 .f32) bitsLt_bf16_f32 : FVec Ideal S1024x128 .bf16) (ix2 p k)
      = v (ix3 (0 : Fin 1) p k) :=
  slab_apply v p k

/-- Children 0 and 1 added onto zero. -/
theorem pay10_apply (v50 : FVec Ideal S1024x128 .f32) (cst : Ideal .f32) (v65 : Vec Ideal S1x1024x128 .f32)
    (v68 : Vec Ideal S128x128 .bf16) (v72 : Vec Ideal S1x128 .f32) (v76 v80 : Vec Ideal S1x1024x128 .f32)
    (v83 : Vec Ideal S128x128 .bf16) (v87 : Vec Ideal S1x128 .f32) (v91 : Vec Ideal S1x1024x128 .f32) :
    k0_pay10 v50 cst v65 v68 v72 v76 v80 v83 v87 v91 (ix2 p q)
      = (cst + Ideal.logistic ((v50 (ix2 p q) + rowDot (fun k => v65 (ix3 (0 : Fin 1) p k)) v68 q) + v72 (ix2 (0 : Fin 1) q))
                * v76 (ix3 (0 : Fin 1) p q))
          + Ideal.logistic ((v50 (ix2 p q) + rowDot (fun k => v80 (ix3 (0 : Fin 1) p k)) v83 q) + v87 (ix2 (0 : Fin 1) q))
                * v91 (ix3 (0 : Fin 1) p q) := by
  unfold k0_pay10
  rw [addf_apply, addf_apply, mulf_apply, mulf_apply, forget_apply, forget_apply, slab_apply, slab_apply, broadcast_apply]
  simp only [narrow_slab_apply]

/-- Child 2's hidden slab narrowed. -/
theorem pay11_apply (v95 : Vec Ideal S1x1024x128 .f32) : k0_pay11 v95 (ix2 p k) = v95 (ix3 (0 : Fin 1) p k) :=
  slab_apply v95 p k

/-- Children 2 and 3 added on. -/
theorem pay12_apply (v50 v94 : FVec Ideal S1024x128 .f32) (v97 : FVec Ideal S1024x128 .bf16) (v98 : Vec Ideal S128x128 .bf16)
    (v102 : Vec Ideal S1x128 .f32) (v106 v110 : Vec Ideal S1x1024x128 .f32) (v113 : Vec Ideal S128x128 .bf16)
    (v117 : Vec Ideal S1x128 .f32) (v121 : Vec Ideal S1x1024x128 .f32) :
    k0_pay12 v50 v94 v97 v98 v102 v106 v110 v113 v117 v121 (ix2 p q)
      = (v94 (ix2 p q) + Ideal.logistic ((v50 (ix2 p q) + rowDot (fun k => v97 (ix2 p k)) v98 q) + v102 (ix2 (0 : Fin 1) q))
                * v106 (ix3 (0 : Fin 1) p q))
          + Ideal.logistic ((v50 (ix2 p q) + rowDot (fun k => v110 (ix3 (0 : Fin 1) p k)) v113 q) + v117 (ix2 (0 : Fin 1) q))
                * v121 (ix3 (0 : Fin 1) p q) := by
  unfold k0_pay12
  rw [addf_apply, addf_apply, mulf_apply, mulf_apply, forget_apply, forget_apply, slab_apply, slab_apply]
  simp only [narrow_slab_apply]

/-- Child 4's forget gate before its bias. -/
theorem pay13_apply (v50 : FVec Ideal S1024x128 .f32) (v125 : Vec Ideal S1x1024x128 .f32) (v128 : Vec Ideal S128x128 .bf16) :
    k0_pay13 v50 v125 v128 (ix2 p q) = v50 (ix2 p q) + rowDot (fun k => v125 (ix3 (0 : Fin 1) p k)) v128 q := by
  unfold k0_pay13
  rw [addf_apply, weight_cast, tile_dot]
  simp only [narrow_slab_apply]

/-- Children 4 and 5 added on. -/
theorem pay14_apply (v50 v124 v131 : FVec Ideal S1024x128 .f32) (v132 : Vec Ideal S1x128 .f32)
    (v136 v140 : Vec Ideal S1x1024x128 .f32) (v143 : Vec Ideal S128x128 .bf16) (v147 : Vec Ideal S1x128 .f32)
    (v151 : Vec Ideal S1x1024x128 .f32) :
    k0_pay14 v50 v124 v131 v132 v136 v140 v143 v147 v151 (ix2 p q)
      = (v124 (ix2 p q) + Ideal.logistic (v131 (ix2 p q) + v132 (ix2 (0 : Fin 1) q)) * v136 (ix3 (0 : Fin 1) p q))
          + Ideal.logistic ((v50 (ix2 p q) + rowDot (fun k => v140 (ix3 (0 : Fin 1) p k)) v143 q) + v147 (ix2 (0 : Fin 1) q))
                * v151 (ix3 (0 : Fin 1) p q) := by
  unfold k0_pay14
  rw [addf_apply, addf_apply, mulf_apply, mulf_apply, forget_apply, logistic_apply, addf_apply, bias_apply, slab_apply, slab_apply]
  simp only [narrow_slab_apply]

/-- Child 6's forget gate. -/
theorem pay15_apply (v50 : FVec Ideal S1024x128 .f32) (v155 : Vec Ideal S1x1024x128 .f32) (v158 : Vec Ideal S128x128 .bf16)
    (v162 : Vec Ideal S1x128 .f32) :
    k0_pay15 v50 v155 v158 v162 (ix2 p q)
      = Ideal.logistic ((v50 (ix2 p q) + rowDot (fun k => v155 (ix3 (0 : Fin 1) p k)) v158 q) + v162 (ix2 (0 : Fin 1) q)) := by
  unfold k0_pay15
  rw [forget_apply]
  simp only [narrow_slab_apply]

/-- The stored memory value: input gate times candidate, plus the running sum with children 6 and 7 added on. -/
theorem pay1_apply (v50 v61 v63 v154 v165 : FVec Ideal S1024x128 .f32) (v166 v170 : Vec Ideal S1x1024x128 .f32)
    (v173 : Vec Ideal S128x128 .bf16) (v177 : Vec Ideal S1x128 .f32) (v181 : Vec Ideal S1x1024x128 .f32) :
    k0_pay1 v50 v61 v63 v154 v165 v166 v170 v173 v177 v181 (ix2 p q)
      = v61 (ix2 p q) * v63 (ix2 p q)
          + ((v154 (ix2 p q) + v165 (ix2 p q) * v166 (ix3 (0 : Fin 1) p q))
              + Ideal.logistic ((v50 (ix2 p q) + rowDot (fun k => v170 (ix3 (0 : Fin 1) p k)) v173 q) + v177 (ix2 (0 : Fin 1) q))
                  * v181 (ix3 (0 : Fin 1) p q)) := by
  unfold k0_pay1
  rw [addf_apply, mulf_apply, addf_apply, addf_apply, mulf_apply, mulf_apply, forget_apply, slab_apply, slab_apply]
  simp only [narrow_slab_apply]

/-- The stored hidden value: output gate times the hyperbolic tangent of the stored memory value. -/
theorem pay2_apply (v50 v61 v62 v63 v154 v165 : FVec Ideal S1024x128 .f32) (v166 v170 : Vec Ideal S1x1024x128 .f32)
    (v173 : Vec Ideal S128x128 .bf16) (v177 : Vec Ideal S1x128 .f32) (v181 : Vec Ideal S1x1024x128 .f32) :
    k0_pay2 v50 v61 v62 v63 v154 v165 v166 v170 v173 v177 v181 (ix2 p q)
      = v62 (ix2 p q) * Ideal.tanh (k0_pay1 v50 v61 v63 v154 v165 v166 v170 v173 v177 v181 (ix2 p q)) := rfl

end payloads

end Cert.TreeLstm.Tile

end
-- ==== Proof.Cell.lean ====
/-
  What one grid point of the tree-LSTM kernel stores, entry by entry.

  The body's two stored values are nested: the stored memory value is built from the input's part of the forget
  gates, the input gate, the candidate and the running sum of forget-gated child memories (children 0 and 1, then 2
  and 3, then 4 and 5, then 6 and 7), and the stored hidden value is the output gate times the hyperbolic tangent of the
  stored memory value. Here the nest is named once over the sixteen blocks the body loads (`memV`, `hidV`), and read at
  an entry (p, q): if row p of the input block is  a , row p of child n's hidden slab is  hc n  and child n's memory slab
  at (p, q) is  cc n , then the stored memory entry is `cellC a hc cc …` and the stored hidden entry `cellH a hc cc …`.
  The two sums over the children appear in the body as eight terms added one after the other onto zero.
-/
import proofs.«139234_j7456063226111_1_alg».proof.Proof.Tile

noncomputable section

open scoped BigOperators

namespace Cert.TreeLstm.Tile

open Cert.KernelIdeal Cert.KernelIdeal.Gen Idealize.ShloMosaic Idealize.ShloMosaic.ValueIdx Cert.TreeLstm

section nest

variable (X : Vec Ideal S1024x128 .f32) (H0 H1 H2 H3 H4 H5 H6 H7 C0 C1 C2 C3 C4 C5 C6 C7 : Vec Ideal S1x1024x128 .f32)
  (Wi Wf Wo Wu Ui Uf Uo Uu : Vec Ideal S128x128 .bf16) (bi bf bo bu : Vec Ideal S1x128 .f32)

/-- The input block against the forget weights. -/
def fxV : FVec Ideal S1024x128 .f32 := k0_pay6 (k0_pay3 X) Wf

/-- The summed child hidden state. -/
def sumV : FVec Ideal S1024x128 .bf16 := k0_pay4 H0 H1 H2 H3 H4 H5 H6 H7

/-- The running sum of forget-gated child memories after children 0 to 5. -/
def run5V : FVec Ideal S1024x128 .f32 :=
  k0_pay14 (fxV X Wf)
    (k0_pay12 (fxV X Wf)
      (k0_pay10 (fxV X Wf) (Scalar.ofBits .f32 0x00000000#32) H0 Uf bf C0 H1 Uf bf C1)
      (k0_pay11 H2) Uf bf C2 H3 Uf bf C3)
    (k0_pay13 (fxV X Wf) H4 Uf) bf C4 H5 Uf bf C5

/-- The stored memory value. -/
def memV : FVec Ideal S1024x128 .f32 :=
  k0_pay1 (fxV X Wf)
    (k0_pay7 (k0_pay3 X) (sumV H0 H1 H2 H3 H4 H5 H6 H7) (k0_pay5 Wi) Ui bi)
    (k0_pay9 (k0_pay3 X) (sumV H0 H1 H2 H3 H4 H5 H6 H7) Wu Uu bu)
    (run5V X H0 H1 H2 H3 H4 H5 C0 C1 C2 C3 C4 C5 Wf Uf bf)
    (k0_pay15 (fxV X Wf) H6 Uf bf) C6 H7 Uf bf C7

/-- The stored hidden value. -/
def hidV : FVec Ideal S1024x128 .f32 :=
  k0_pay2 (fxV X Wf)
    (k0_pay7 (k0_pay3 X) (sumV H0 H1 H2 H3 H4 H5 H6 H7) (k0_pay5 Wi) Ui bi)
    (k0_pay8 (k0_pay3 X) (sumV H0 H1 H2 H3 H4 H5 H6 H7) Wo Uo bo)
    (k0_pay9 (k0_pay3 X) (sumV H0 H1 H2 H3 H4 H5 H6 H7) Wu Uu bu)
    (run5V X H0 H1 H2 H3 H4 H5 C0 C1 C2 C3 C4 C5 Wf Uf bf)
    (k0_pay15 (fxV X Wf) H6 Uf bf) C6 H7 Uf bf C7

variable (p : Fin 1024) (q : Fin 128) (a : Fin 128 → EReal) (hc : Fin 8 → Fin 128 → EReal) (cc : Fin 8 → EReal)

/-- The summed child state at (p, k): the eight slabs' entries added onto zero are their sum. -/
theorem sumV_apply (h0 : ∀ k, H0 (ix3 (0 : Fin 1) p k) = hc 0 k) (h1 : ∀ k, H1 (ix3 (0 : Fin 1) p k) = hc 1 k)
    (h2 : ∀ k, H2 (ix3 (0 : Fin 1) p k) = hc 2 k) (h3 : ∀ k, H3 (ix3 (0 : Fin 1) p k) = hc 3 k)
    (h4 : ∀ k, H4 (ix3 (0 : Fin 1) p k) = hc 4 k) (h5 : ∀ k, H5 (ix3 (0 : Fin 1) p k) = hc 5 k)
    (h6 : ∀ k, H6 (ix3 (0 : Fin 1) p k) = hc 6 k) (h7 : ∀ k, H7 (ix3 (0 : Fin 1) p k) = hc 7 k) (k : Fin 128) :
    sumV H0 H1 H2 H3 H4 H5 H6 H7 (ix2 p k) = childSum hc k := by
  unfold sumV
  rw [pay4_apply, h0, h1, h2, h3, h4, h5, h6, h7]
  exact fold8 (fun n => hc n k)

/-- The stored memory entry is the cell's new memory entry. -/
theorem memV_apply (ha : ∀ k, X (ix2 p k) = a k)
    (h0 : ∀ k, H0 (ix3 (0 : Fin 1) p k) = hc 0 k) (h1 : ∀ k, H1 (ix3 (0 : Fin 1) p k) = hc 1 k)
    (h2 : ∀ k, H2 (ix3 (0 : Fin 1) p k) = hc 2 k) (h3 : ∀ k, H3 (ix3 (0 : Fin 1) p k) = hc 3 k)
    (h4 : ∀ k, H4 (ix3 (0 : Fin 1) p k) = hc 4 k) (h5 : ∀ k, H5 (ix3 (0 : Fin 1) p k) = hc 5 k)
    (h6 : ∀ k, H6 (ix3 (0 : Fin 1) p k) = hc 6 k) (h7 : ∀ k, H7 (ix3 (0 : Fin 1) p k) = hc 7 k)
    (c0 : C0 (ix3 (0 : Fin 1) p q) = cc 0) (c1 : C1 (ix3 (0 : Fin 1) p q) = cc 1)
    (c2 : C2 (ix3 (0 : Fin 1) p q) = cc 2) (c3 : C3 (ix3 (0 : Fin 1) p q) = cc 3)
    (c4 : C4 (ix3 (0 : Fin 1) p q) = cc 4) (c5 : C5 (ix3 (0 : Fin 1) p q) = cc 5)
    (c6 : C6 (ix3 (0 : Fin 1) p q) = cc 6) (c7 : C7 (ix3 (0 : Fin 1) p q) = cc 7) :
    memV X H0 H1 H2 H3 H4 H5 H6 H7 C0 C1 C2 C3 C4 C5 C6 C7 Wi Wf Wu Ui Uf Uu bi bf bu (ix2 p q)
      = cellC a hc cc Wi Wf Wu Ui Uf Uu bi bf bu q := by
  have hs : ∀ k, sumV H0 H1 H2 H3 H4 H5 H6 H7 (ix2 p k) = childSum hc k :=
    sumV_apply H0 H1 H2 H3 H4 H5 H6 H7 p hc h0 h1 h2 h3 h4 h5 h6 h7
  unfold memV run5V fxV
  rw [pay1_apply]
  simp only [pay3_apply, pay5_eq, pay6_apply, pay7_apply, pay9_apply, pay10_apply, pay11_apply, pay12_apply,
    pay13_apply, pay14_apply, pay15_apply, hs, ha, h0, h1, h2, h3, h4, h5, h6, h7, c0, c1, c2, c3, c4, c5, c6, c7]
  unfold cellC
  refine congrArg₂ (· + ·) rfl ?_
  show (((((((Ideal.ofBits .f32 0x00000000#32 + _) + _) + _) + _) + _) + _) + _) + _ = _
  rw [Ideal.ofBits_zero_f32]
  exact fold8 (fun n => Ideal.logistic (gatePre a (hc n) Wf Uf bf q) * cc n)

/-- The stored hidden entry is the cell's new hidden entry. -/
theorem hidV_apply (ha : ∀ k, X (ix2 p k) = a k)
    (h0 : ∀ k, H0 (ix3 (0 : Fin 1) p k) = hc 0 k) (h1 : ∀ k, H1 (ix3 (0 : Fin 1) p k) = hc 1 k)
    (h2 : ∀ k, H2 (ix3 (0 : Fin 1) p k) = hc 2 k) (h3 : ∀ k, H3 (ix3 (0 : Fin 1) p k) = hc 3 k)
    (h4 : ∀ k, H4 (ix3 (0 : Fin 1) p k) = hc 4 k) (h5 : ∀ k, H5 (ix3 (0 : Fin 1) p k) = hc 5 k)
    (h6 : ∀ k, H6 (ix3 (0 : Fin 1) p k) = hc 6 k) (h7 : ∀ k, H7 (ix3 (0 : Fin 1) p k) = hc 7 k)
    (c0 : C0 (ix3 (0 : Fin 1) p q) = cc 0) (c1 : C1 (ix3 (0 : Fin 1) p q) = cc 1)
    (c2 : C2 (ix3 (0 : Fin 1) p q) = cc 2) (c3 : C3 (ix3 (0 : Fin 1) p q) = cc 3)
    (c4 : C4 (ix3 (0 : Fin 1) p q) = cc 4) (c5 : C5 (ix3 (0 : Fin 1) p q) = cc 5)
    (c6 : C6 (ix3 (0 : Fin 1) p q) = cc 6) (c7 : C7 (ix3 (0 : Fin 1) p q) = cc 7) :
    hidV X H0 H1 H2 H3 H4 H5 H6 H7 C0 C1 C2 C3 C4 C5 C6 C7 Wi Wf Wo Wu Ui Uf Uo Uu bi bf bo bu (ix2 p q)
      = cellH a hc cc Wi Wf Wo Wu Ui Uf Uo Uu bi bf bo bu q := by
  have hs : ∀ k, sumV H0 H1 H2 H3 H4 H5 H6 H7 (ix2 p k) = childSum hc k :=
    sumV_apply H0 H1 H2 H3 H4 H5 H6 H7 p hc h0 h1 h2 h3 h4 h5 h6 h7
  have hm := memV_apply X H0 H1 H2 H3 H4 H5 H6 H7 C0 C1 C2 C3 C4 C5 C6 C7 Wi Wf Wu Ui Uf Uu bi bf bu p q a hc cc
    ha h0 h1 h2 h3 h4 h5 h6 h7 c0 c1 c2 c3 c4 c5 c6 c7
  unfold hidV
  rw [pay2_apply]
  unfold cellH
  refine congrArg₂ (· * ·) ?_ (congrArg Ideal.tanh hm)
  rw [pay8_apply]
  simp only [pay3_apply, hs, ha]

end nest

end Cert.TreeLstm.Tile

end
-- ==== Proof.Blocks.lean ====
/-
  From the tiles to the whole arrays.

  Grid point t of the tree-LSTM kernel works on rows 1024·t … 1024·t + 1023: its input block is those rows of the
  input, its two child blocks those rows of all eight children, its weight and bias blocks the whole matrices and
  rows (the eight weight matrices the kernel reads are the arguments narrowed to bf16 by the host beforehand, which
  changes nothing on the extended reals), and it writes back those rows of the two results. So what point t writes
  back is block t of the whole-array functions `hidArr` and `memArr` of the arguments (`flushed15_eq`,
  `flushed16_eq`); the 32 blocks cover all 32768 rows (row r lies in block r / 1024), so after the run the two result
  arrays are those functions (`final15`, `final16`, `run`).
-/
import proofs.«139234_j7456063226111_1_alg».proof.Proof.Gen.KernelIdeal.Value
import proofs.«139234_j7456063226111_1_alg».proof.Proof.Cell
import Idealize.ShloMosaic.Lib.StableHlo.Run

set_option maxRecDepth 16384

noncomputable section

namespace Cert.TreeLstm.Blocks

open Cert.KernelIdeal Cert.KernelIdeal.Gen Cert.KernelIdeal.Value Idealize.ShloMosaic Idealize.ShloMosaic.TcCoe Idealize.SL.Sem
  Idealize.ShloMosaic.ValueIdx Idealize.ShloMosaic.StableHlo Cert.TreeLstm Cert.TreeLstm.Tile
open Idealize.ShloMosaic.Pipeline (Dat)

variable (m : (ℓ : Loc nD τ sig) → Buf (Elt Ideal) ℓ) (ρ : Dev nD → PrngReg)

/-! ## The index maps over the grid -/

/-- The moving windows (input, children, the two results) sit at row block t; their other block indices are 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weight and bias windows stay at block (0, 0). -/
theorem idx_const : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Row p of block t is row 1024·t + p of the array. -/
def row (t : Fin cfg0.N) (p : Fin 1024) : Fin 32768 :=
  ⟨t.val * 1024 + p.val, by have h : cfg0.N = 32 := N_0; have := t.isLt; have := p.isLt; omega⟩

/-! ## The arguments as arrays of extended reals -/

abbrev argX (c : Dev nD) : Arr2 := (m ((c : Thread nD τ).loc main_arg0) : S32768x128.Idx → EReal)
abbrev argH (c : Dev nD) : Arr3 := (m ((c : Thread nD τ).loc main_arg1) : S8x32768x128.Idx → EReal)
abbrev argC (c : Dev nD) : Arr3 := (m ((c : Thread nD τ).loc main_arg2) : S8x32768x128.Idx → EReal)

/-- The two result arrays as functions of the arguments. -/
def hidOut (c : Dev nD) : Arr2 :=
  hidArr (argX m c) (argH m c) (argC m c)
    (m ((c : Thread nD τ).loc main_arg3) : S128x128.Idx → EReal) (m ((c : Thread nD τ).loc main_arg4) : S128x128.Idx → EReal)
    (m ((c : Thread nD τ).loc main_arg5) : S128x128.Idx → EReal) (m ((c : Thread nD τ).loc main_arg6) : S128x128.Idx → EReal)
    (m ((c : Thread nD τ).loc main_arg7) : S128x128.Idx → EReal) (m ((c : Thread nD τ).loc main_arg8) : S128x128.Idx → EReal)
    (m ((c : Thread nD τ).loc main_arg9) : S128x128.Idx → EReal) (m ((c : Thread nD τ).loc main_arg10) : S128x128.Idx → EReal)
    (m ((c : Thread nD τ).loc main_arg11) : S1x128.Idx → EReal) (m ((c : Thread nD τ).loc main_arg12) : S1x128.Idx → EReal)
    (m ((c : Thread nD τ).loc main_arg13) : S1x128.Idx → EReal) (m ((c : Thread nD τ).loc main_arg14) : S1x128.Idx → EReal)

def memOut (c : Dev nD) : Arr2 :=
  memArr (argX m c) (argH m c) (argC m c)
    (m ((c : Thread nD τ).loc main_arg3) : S128x128.Idx → EReal) (m ((c : Thread nD τ).loc main_arg4) : S128x128.Idx → EReal)
    (m ((c : Thread nD τ).loc main_arg6) : S128x128.Idx → EReal)
    (m ((c : Thread nD τ).loc main_arg7) : S128x128.Idx → EReal) (m ((c : Thread nD τ).loc main_arg8) : S128x128.Idx → EReal)
    (m ((c : Thread nD τ).loc main_arg10) : S128x128.Idx → EReal)
    (m ((c : Thread nD τ).loc main_arg11) : S1x128.Idx → EReal) (m ((c : Thread nD τ).loc main_arg12) : S1x128.Idx → EReal)
    (m ((c : Thread nD τ).loc main_arg14) : S1x128.Idx → EReal)

/-! ## The narrowed weights the host writes before the region -/

theorem V_weight3 (c : Dev nD) :
    (V m c main_v0 : S128x128.Idx → EReal) = (m ((c : Thread nD τ).loc main_arg3) : S128x128.Idx → EReal) := by
  dsimp only [Gen.V, Gen.hostOps0]; after_results; rfl

theorem V_weight4 (c : Dev nD) :
    (V m c main_v1 : S128x128.Idx → EReal) = (m ((c : Thread nD τ).loc main_arg4) : S128x128.Idx → EReal) := by
  dsimp only [Gen.V, Gen.hostOps0]; after_results; rfl

theorem V_weight5 (c : Dev nD) :
    (V m c main_v2 : S128x128.Idx → EReal) = (m ((c : Thread nD τ).loc main_arg5) : S128x128.Idx → EReal) := by
  dsimp only [Gen.V, Gen.hostOps0]; after_results; rfl

theorem V_weight6 (c : Dev nD) :
    (V m c main_v3 : S128x128.Idx → EReal) = (m ((c : Thread nD τ).loc main_arg6) : S128x128.Idx → EReal) := by
  dsimp only [Gen.V, Gen.hostOps0]; after_results; rfl

theorem V_weight7 (c : Dev nD) :
    (V m c main_v4 : S128x128.Idx → EReal) = (m ((c : Thread nD τ).loc main_arg7) : S128x128.Idx → EReal) := by
  dsimp only [Gen.V, Gen.hostOps0]; after_results; rfl

theorem V_weight8 (c : Dev nD) :
    (V m c main_v5 : S128x128.Idx → EReal) = (m ((c : Thread nD τ).loc main_arg8) : S128x128.Idx → EReal) := by
  dsimp only [Gen.V, Gen.hostOps0]; after_results; rfl

theorem V_weight9 (c : Dev nD) :
    (V m c main_v6 : S128x128.Idx → EReal) = (m ((c : Thread nD τ).loc main_arg9) : S128x128.Idx → EReal) := by
  dsimp only [Gen.V, Gen.hostOps0]; after_results; rfl

theorem V_weight10 (c : Dev nD) :
    (V m c main_v7 : S128x128.Idx → EReal) = (m ((c : Thread nD τ).loc main_arg10) : S128x128.Idx → EReal) := by
  dsimp only [Gen.V, Gen.hostOps0]; after_results; rfl

/-! ## Each window's block at point t, read off the arguments -/

/-- The input block: rows 1024·t … of the input. -/
theorem xblk (c : Dev nD) (t : Fin cfg0.N) (p : Fin 1024) (k : Fin 128) :
    (iblk m c 0 t : S1024x128.Idx → EReal) (ix2 p k) = argX m c (ix2 (row t p) k) := by
  unfold iblk
  rw [View.read_apply]
  show V m c main_arg0 _ = _
  rw [V_main_arg0]
  congr 1
  funext a
  apply Fin.ext
  obtain ⟨e0, e1, -⟩ := idx_facts t
  match a with
  | ⟨0, _⟩ => show win0_0.index t (0 : Fin 2) * 1024 + 1 * p.val = t.val * 1024 + p.val; omega
  | ⟨1, _⟩ => show win0_0.index t (1 : Fin 2) * 128 + 1 * k.val = k.val; omega

/-- The children's hidden block: rows 1024·t … of every child. -/
theorem hblk (c : Dev nD) (t : Fin cfg0.N) (n : Fin 8) (p : Fin 1024) (k : Fin 128) :
    (iblk m c 1 t : S8x1024x128.Idx → EReal) (ix3 n p k) = argH m c (ix3 n (row t p) k) := by
  unfold iblk
  rw [View.read_apply]
  show V m c main_arg1 _ = _
  rw [V_main_arg1]
  congr 1
  funext a
  apply Fin.ext
  obtain ⟨-, -, e0, e1, e2, -⟩ := idx_facts t
  match a with
  | ⟨0, _⟩ => show win0_1.index t (0 : Fin 3) * 8 + 1 * n.val = n.val; omega
  | ⟨1, _⟩ => show win0_1.index t (1 : Fin 3) * 1024 + 1 * p.val = t.val * 1024 + p.val; omega
  | ⟨2, _⟩ => show win0_1.index t (2 : Fin 3) * 128 + 1 * k.val = k.val; omega

/-- The children's memory block. -/
theorem cblk (c : Dev nD) (t : Fin cfg0.N) (n : Fin 8) (p : Fin 1024) (k : Fin 128) :
    (iblk m c 2 t : S8x1024x128.Idx → EReal) (ix3 n p k) = argC m c (ix3 n (row t p) k) := by
  unfold iblk
  rw [View.read_apply]
  show V m c main_arg2 _ = _
  rw [V_main_arg2]
  congr 1
  funext a
  apply Fin.ext
  obtain ⟨-, -, -, -, -, e0, e1, e2, -⟩ := idx_facts t
  match a with
  | ⟨0, _⟩ => show win0_2.index t (0 : Fin 3) * 8 + 1 * n.val = n.val; omega
  | ⟨1, _⟩ => show win0_2.index t (1 : Fin 3) * 1024 + 1 * p.val = t.val * 1024 + p.val; omega
  | ⟨2, _⟩ => show win0_2.index t (2 : Fin 3) * 128 + 1 * k.val = k.val; omega

theorem wblk3 (c : Dev nD) (t : Fin cfg0.N) :
    (iblk m c 3 t : S128x128.Idx → EReal) = (m ((c : Thread nD τ).loc main_arg3) : S128x128.Idx → EReal) := by
  funext y
  unfold iblk
  rw [View.read_apply]
  show V m c main_v0 _ = _
  rw [V_weight3]
  congr 1
  funext a
  apply Fin.ext
  obtain ⟨e0, e1⟩ := (idx_const t).1
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem wblk4 (c : Dev nD) (t : Fin cfg0.N) :
    (iblk m c 4 t : S128x128.Idx → EReal) = (m ((c : Thread nD τ).loc main_arg4) : S128x128.Idx → EReal) := by
  funext y
  unfold iblk
  rw [View.read_apply]
  show V m c main_v1 _ = _
  rw [V_weight4]
  congr 1
  funext a
  apply Fin.ext
  obtain ⟨e0, e1⟩ := (idx_const t).2.1
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem wblk5 (c : Dev nD) (t : Fin cfg0.N) :
    (iblk m c 5 t : S128x128.Idx → EReal) = (m ((c : Thread nD τ).loc main_arg5) : S128x128.Idx → EReal) := by
  funext y
  unfold iblk
  rw [View.read_apply]
  show V m c main_v2 _ = _
  rw [V_weight5]
  congr 1
  funext a
  apply Fin.ext
  obtain ⟨e0, e1⟩ := (idx_const t).2.2.1
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem wblk6 (c : Dev nD) (t : Fin cfg0.N) :
    (iblk m c 6 t : S128x128.Idx → EReal) = (m ((c : Thread nD τ).loc main_arg6) : S128x128.Idx → EReal) := by
  funext y
  unfold iblk
  rw [View.read_apply]
  show V m c main_v3 _ = _
  rw [V_weight6]
  congr 1
  funext a
  apply Fin.ext
  obtain ⟨e0, e1⟩ := (idx_const t).2.2.2.1
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem wblk7 (c : Dev nD) (t : Fin cfg0.N) :
    (iblk m c 7 t : S128x128.Idx → EReal) = (m ((c : Thread nD τ).loc main_arg7) : S128x128.Idx → EReal) := by
  funext y
  unfold iblk
  rw [View.read_apply]
  show V m c main_v4 _ = _
  rw [V_weight7]
  congr 1
  funext a
  apply Fin.ext
  obtain ⟨e0, e1⟩ := (idx_const t).2.2.2.2.1
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem wblk8 (c : Dev nD) (t : Fin cfg0.N) :
    (iblk m c 8 t : S128x128.Idx → EReal) = (m ((c : Thread nD τ).loc main_arg8) : S128x128.Idx → EReal) := by
  funext y
  unfold iblk
  rw [View.read_apply]
  show V m c main_v5 _ = _
  rw [V_weight8]
  congr 1
  funext a
  apply Fin.ext
  obtain ⟨e0, e1⟩ := (idx_const t).2.2.2.2.2.1
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem wblk9 (c : Dev nD) (t : Fin cfg0.N) :
    (iblk m c 9 t : S128x128.Idx → EReal) = (m ((c : Thread nD τ).loc main_arg9) : S128x128.Idx → EReal) := by
  funext y
  unfold iblk
  rw [View.read_apply]
  show V m c main_v6 _ = _
  rw [V_weight9]
  congr 1
  funext a
  apply Fin.ext
  obtain ⟨e0, e1⟩ := (idx_const t).2.2.2.2.2.2.1
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem wblk10 (c : Dev nD) (t : Fin cfg0.N) :
    (iblk m c 10 t : S128x128.Idx → EReal) = (m ((c : Thread nD τ).loc main_arg10) : S128x128.Idx → EReal) := by
  funext y
  unfold iblk
  rw [View.read_apply]
  show V m c main_v7 _ = _
  rw [V_weight10]
  congr 1
  funext a
  apply Fin.ext
  obtain ⟨e0, e1⟩ := (idx_const t).2.2.2.2.2.2.2.1
  match a with
  | ⟨0, _⟩ => show win0_10.index t (0 : Fin 2) * 128 + 1 * (y 0).val = (y 0).val; omega
  | ⟨1, _⟩ => show win0_10.index t (1 : Fin 2) * 128 + 1 * (y 1).val = (y 1).val; omega

theorem bblk11 (c : Dev nD) (t : Fin cfg0.N) :
    (iblk m c 11 t : S1x128.Idx → EReal) = (m ((c : Thread nD τ).loc main_arg11) : S1x128.Idx → EReal) := by
  funext y
  unfold iblk
  rw [View.read_apply]
  show V m c main_arg11 _ = _
  rw [V_main_arg11]
  congr 1
  funext a
  apply Fin.ext
  obtain ⟨e0, e1⟩ := (idx_const t).2.2.2.2.2.2.2.2.1
  match a with
  | ⟨0, _⟩ => show win0_11.index t (0 : Fin 2) * 1 + 1 * (y 0).val = (y 0).val; omega
  | ⟨1, _⟩ => show win0_11.index t (1 : Fin 2) * 128 + 1 * (y 1).val = (y 1).val; omega

theorem bblk12 (c : Dev nD) (t : Fin cfg0.N) :
    (iblk m c 12 t : S1x128.Idx → EReal) = (m ((c : Thread nD τ).loc main_arg12) : S1x128.Idx → EReal) := by
  funext y
  unfold iblk
  rw [View.read_apply]
  show V m c main_arg12 _ = _
  rw [V_main_arg12]
  congr 1
  funext a
  apply Fin.ext
  obtain ⟨e0, e1⟩ := (idx_const t).2.2.2.2.2.2.2.2.2.1
  match a with
  | ⟨0, _⟩ => show win0_12.index t (0 : Fin 2) * 1 + 1 * (y 0).val = (y 0).val; omega
  | ⟨1, _⟩ => show win0_12.index t (1 : Fin 2) * 128 + 1 * (y 1).val = (y 1).val; omega

theorem bblk13 (c : Dev nD) (t : Fin cfg0.N) :
    (iblk m c 13 t : S1x128.Idx → EReal) = (m ((c : Thread nD τ).loc main_arg13) : S1x128.Idx → EReal) := by
  funext y
  unfold iblk
  rw [View.read_apply]
  show V m c main_arg13 _ = _
  rw [V_main_arg13]
  congr 1
  funext a
  apply Fin.ext
  obtain ⟨e0, e1⟩ := (idx_const t).2.2.2.2.2.2.2.2.2.2.1
  match a with
  | ⟨0, _⟩ => show win0_13.index t (0 : Fin 2) * 1 + 1 * (y 0).val = (y 0).val; omega
  | ⟨1, _⟩ => show win0_13.index t (1 : Fin 2) * 128 + 1 * (y 1).val = (y 1).val; omega

theorem bblk14 (c : Dev nD) (t : Fin cfg0.N) :
    (iblk m c 14 t : S1x128.Idx → EReal) = (m ((c : Thread nD τ).loc main_arg14) : S1x128.Idx → EReal) := by
  funext y
  unfold iblk
  rw [View.read_apply]
  show V m c main_arg14 _ = _
  rw [V_main_arg14]
  congr 1
  funext a
  apply Fin.ext
  obtain ⟨e0, e1⟩ := (idx_const t).2.2.2.2.2.2.2.2.2.2.2
  match a with
  | ⟨0, _⟩ => show win0_14.index t (0 : Fin 2) * 1 + 1 * (y 0).val = (y 0).val; omega
  | ⟨1, _⟩ => show win0_14.index t (1 : Fin 2) * 128 + 1 * (y 1).val = (y 1).val; omega

/-! ## What a point writes back -/

/-- Where entry (p, q) of a result block at point t lands in the result arrays. -/
theorem emb15 (t : Fin cfg0.N) (p : Fin 1024) (q : Fin 128) :
    ((cfg0.win 15).blk t).view.emb (ix2 p q) = ix2 (row t p) q := by
  funext a
  apply Fin.ext
  obtain ⟨-, -, -, -, -, -, -, -, e0, e1, -⟩ := idx_facts t
  match a with
  | ⟨0, _⟩ => show win0_15.index t (0 : Fin 2) * 1024 + 1 * p.val = t.val * 1024 + p.val; omega
  | ⟨1, _⟩ => show win0_15.index t (1 : Fin 2) * 128 + 1 * q.val = q.val; omega

theorem emb16 (t : Fin cfg0.N) (p : Fin 1024) (q : Fin 128) :
    ((cfg0.win 16).blk t).view.emb (ix2 p q) = ix2 (row t p) q := by
  funext a
  apply Fin.ext
  obtain ⟨-, -, -, -, -, -, -, -, -, -, e0, e1⟩ := idx_facts t
  match a with
  | ⟨0, _⟩ => show win0_16.index t (0 : Fin 2) * 1024 + 1 * p.val = t.val * 1024 + p.val; omega
  | ⟨1, _⟩ => show win0_16.index t (1 : Fin 2) * 128 + 1 * q.val = q.val; omega

/-- What point t writes back to the new-memory array is block t of `memOut`. -/
theorem flushed16_eq (c : Dev nD) (t : Fin cfg0.N) :
    (dats m 0 c).flushed 16 t = ((cfg0.win 16).blk t).view.read (Elt Ideal) (memOut m c) := by
  rw [flushed16]
  unfold out0_16
  rw [View.canon_unit_zero hz2]
  simp only [View.ld_unit_zero (S := S1024x128) hz2, View.ld_unit_zero (S := S128x128) hz2, View.ld_unit_zero (S := S1x128) hz2]
  funext j
  obtain ⟨p, q, rfl⟩ : ∃ (p : Fin 1024) (q : Fin 128), j = ix2 p q := ⟨j 0, j 1, eq_ix2 j⟩
  show memV (iblk m c 0 t) (View.ld (iblk m c 1 t) r0_1) (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (View.ld (iblk m c 1 t) r0_8) (View.ld (iblk m c 2 t) r0_1) (View.ld (iblk m c 2 t) r0_2) (View.ld (iblk m c 2 t) r0_3) (View.ld (iblk m c 2 t) r0_4) (View.ld (iblk m c 2 t) r0_5) (View.ld (iblk m c 2 t) r0_6) (View.ld (iblk m c 2 t) r0_7) (View.ld (iblk m c 2 t) r0_8)
      (iblk m c 3 t) (iblk m c 4 t) (iblk m c 6 t) (iblk m c 7 t) (iblk m c 8 t) (iblk m c 10 t)
      (iblk m c 11 t) (iblk m c 12 t) (iblk m c 14 t) (ix2 p q)
    = memOut m c (((cfg0.win 16).blk t).view.emb (ix2 p q))
  rw [emb16]
  refine (memV_apply (iblk m c 0 t) (View.ld (iblk m c 1 t) r0_1) (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (View.ld (iblk m c 1 t) r0_8) (View.ld (iblk m c 2 t) r0_1) (View.ld (iblk m c 2 t) r0_2) (View.ld (iblk m c 2 t) r0_3) (View.ld (iblk m c 2 t) r0_4) (View.ld (iblk m c 2 t) r0_5) (View.ld (iblk m c 2 t) r0_6) (View.ld (iblk m c 2 t) r0_7) (View.ld (iblk m c 2 t) r0_8)
      (iblk m c 3 t) (iblk m c 4 t) (iblk m c 6 t) (iblk m c 7 t) (iblk m c 8 t) (iblk m c 10 t)
      (iblk m c 11 t) (iblk m c 12 t) (iblk m c 14 t) p q
      (fun k => argX m c (ix2 (row t p) k)) (fun n k => argH m c (ix3 n (row t p) k)) (fun n => argC m c (ix3 n (row t p) q))
      (fun k => xblk m c t p k)
      (fun k => (child_ld (iblk m c 1 t) 0 (by decide) _ p k).trans (hblk m c t 0 p k))
      (fun k => (child_ld (iblk m c 1 t) 1 (by decide) _ p k).trans (hblk m c t 1 p k))
      (fun k => (child_ld (iblk m c 1 t) 2 (by decide) _ p k).trans (hblk m c t 2 p k))
      (fun k => (child_ld (iblk m c 1 t) 3 (by decide) _ p k).trans (hblk m c t 3 p k))
      (fun k => (child_ld (iblk m c 1 t) 4 (by decide) _ p k).trans (hblk m c t 4 p k))
      (fun k => (child_ld (iblk m c 1 t) 5 (by decide) _ p k).trans (hblk m c t 5 p k))
      (fun k => (child_ld (iblk m c 1 t) 6 (by decide) _ p k).trans (hblk m c t 6 p k))
      (fun k => (child_ld (iblk m c 1 t) 7 (by decide) _ p k).trans (hblk m c t 7 p k))
      ((child_ld (iblk m c 2 t) 0 (by decide) _ p q).trans (cblk m c t 0 p q))
      ((child_ld (iblk m c 2 t) 1 (by decide) _ p q).trans (cblk m c t 1 p q))
      ((child_ld (iblk m c 2 t) 2 (by decide) _ p q).trans (cblk m c t 2 p q))
      ((child_ld (iblk m c 2 t) 3 (by decide) _ p q).trans (cblk m c t 3 p q))
      ((child_ld (iblk m c 2 t) 4 (by decide) _ p q).trans (cblk m c t 4 p q))
      ((child_ld (iblk m c 2 t) 5 (by decide) _ p q).trans (cblk m c t 5 p q))
      ((child_ld (iblk m c 2 t) 6 (by decide) _ p q).trans (cblk m c t 6 p q))
      ((child_ld (iblk m c 2 t) 7 (by decide) _ p q).trans (cblk m c t 7 p q))).trans ?_
  rw [wblk3, wblk4, wblk6, wblk7, wblk8, wblk10, bblk11, bblk12, bblk14]
  rfl

/-- What point t writes back to the new-hidden array is block t of `hidOut`. -/
theorem flushed15_eq (c : Dev nD) (t : Fin cfg0.N) :
    (dats m 0 c).flushed 15 t = ((cfg0.win 15).blk t).view.read (Elt Ideal) (hidOut m c) := by
  rw [flushed15]
  unfold out0_15
  rw [View.canon_unit_zero hz2]
  simp only [View.ld_unit_zero (S := S1024x128) hz2, View.ld_unit_zero (S := S128x128) hz2, View.ld_unit_zero (S := S1x128) hz2]
  funext j
  obtain ⟨p, q, rfl⟩ : ∃ (p : Fin 1024) (q : Fin 128), j = ix2 p q := ⟨j 0, j 1, eq_ix2 j⟩
  show hidV (iblk m c 0 t) (View.ld (iblk m c 1 t) r0_1) (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (View.ld (iblk m c 1 t) r0_8) (View.ld (iblk m c 2 t) r0_1) (View.ld (iblk m c 2 t) r0_2) (View.ld (iblk m c 2 t) r0_3) (View.ld (iblk m c 2 t) r0_4) (View.ld (iblk m c 2 t) r0_5) (View.ld (iblk m c 2 t) r0_6) (View.ld (iblk m c 2 t) r0_7) (View.ld (iblk m c 2 t) r0_8)
      (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) (ix2 p q)
    = hidOut m c (((cfg0.win 15).blk t).view.emb (ix2 p q))
  rw [emb15]
  refine (hidV_apply (iblk m c 0 t) (View.ld (iblk m c 1 t) r0_1) (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (View.ld (iblk m c 1 t) r0_8) (View.ld (iblk m c 2 t) r0_1) (View.ld (iblk m c 2 t) r0_2) (View.ld (iblk m c 2 t) r0_3) (View.ld (iblk m c 2 t) r0_4) (View.ld (iblk m c 2 t) r0_5) (View.ld (iblk m c 2 t) r0_6) (View.ld (iblk m c 2 t) r0_7) (View.ld (iblk m c 2 t) r0_8)
      (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) p q
      (fun k => argX m c (ix2 (row t p) k)) (fun n k => argH m c (ix3 n (row t p) k)) (fun n => argC m c (ix3 n (row t p) q))
      (fun k => xblk m c t p k)
      (fun k => (child_ld (iblk m c 1 t) 0 (by decide) _ p k).trans (hblk m c t 0 p k))
      (fun k => (child_ld (iblk m c 1 t) 1 (by decide) _ p k).trans (hblk m c t 1 p k))
      (fun k => (child_ld (iblk m c 1 t) 2 (by decide) _ p k).trans (hblk m c t 2 p k))
      (fun k => (child_ld (iblk m c 1 t) 3 (by decide) _ p k).trans (hblk m c t 3 p k))
      (fun k => (child_ld (iblk m c 1 t) 4 (by decide) _ p k).trans (hblk m c t 4 p k))
      (fun k => (child_ld (iblk m c 1 t) 5 (by decide) _ p k).trans (hblk m c t 5 p k))
      (fun k => (child_ld (iblk m c 1 t) 6 (by decide) _ p k).trans (hblk m c t 6 p k))
      (fun k => (child_ld (iblk m c 1 t) 7 (by decide) _ p k).trans (hblk m c t 7 p k))
      ((child_ld (iblk m c 2 t) 0 (by decide) _ p q).trans (cblk m c t 0 p q))
      ((child_ld (iblk m c 2 t) 1 (by decide) _ p q).trans (cblk m c t 1 p q))
      ((child_ld (iblk m c 2 t) 2 (by decide) _ p q).trans (cblk m c t 2 p q))
      ((child_ld (iblk m c 2 t) 3 (by decide) _ p q).trans (cblk m c t 3 p q))
      ((child_ld (iblk m c 2 t) 4 (by decide) _ p q).trans (cblk m c t 4 p q))
      ((child_ld (iblk m c 2 t) 5 (by decide) _ p q).trans (cblk m c t 5 p q))
      ((child_ld (iblk m c 2 t) 6 (by decide) _ p q).trans (cblk m c t 6 p q))
      ((child_ld (iblk m c 2 t) 7 (by decide) _ p q).trans (cblk m c t 7 p q))).trans ?_
  rw [wblk3, wblk4, wblk5, wblk6, wblk7, wblk8, wblk9, wblk10, bblk11, bblk12, bblk13, bblk14]
  rfl

/-! ## The blocks cover the arrays -/

/-- An index of a result array is in point t's block iff each coordinate is in the block's range on its axis. -/
theorem mem_blk15 (t : Fin cfg0.N) (i : S32768x128.Idx) :
    i ∈ ((cfg0.win 15).blk t).view.set ↔ ∀ a : Fin 2, win0_15.index t a * S1024x128.size a ≤ (i a).val ∧ (i a).val < win0_15.index t a * S1024x128.size a + S1024x128.size a := by
  show i ∈ ((View.whole main_v8_0).slice (win0_15.rect t)).set ↔ _
  rw [View.set_slice_whole, Rect.mem_set_unit]
  exact Iff.rfl

theorem mem_blk16 (t : Fin cfg0.N) (i : S32768x128.Idx) :
    i ∈ ((cfg0.win 16).blk t).view.set ↔ ∀ a : Fin 2, win0_16.index t a * S1024x128.size a ≤ (i a).val ∧ (i a).val < win0_16.index t a * S1024x128.size a + S1024x128.size a := by
  show i ∈ ((View.whole main_v8_1).slice (win0_16.rect t)).set ↔ _
  rw [View.set_slice_whole, Rect.mem_set_unit]
  exact Iff.rfl

/-- Row r lies in the block of point r / 1024. -/
theorem cover15 (i : S32768x128.Idx) : ∃ t : Fin cfg0.N, (cfg0.win 15).flush t = true ∧ i ∈ ((cfg0.win 15).blk t).view.set := by
  have hN : cfg0.N = 32 := N_0
  have hi0 : (i 0).val < 32768 := (i 0).isLt
  have hi1 : (i 1).val < 128 := (i 1).isLt
  let t : Fin cfg0.N := ⟨(i 0).val / 1024, by omega⟩
  have ht : t.val = (i 0).val / 1024 := rfl
  refine ⟨t, flush0_15 t, ?_⟩
  rw [mem_blk15]
  obtain ⟨-, -, -, -, -, -, -, -, e0, e1, -⟩ := idx_facts t
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 128 ≤ (i 1).val ∧ (i 1).val < win0_15.index t (1 : Fin 2) * 128 + 128; omega

theorem cover16 (i : S32768x128.Idx) : ∃ t : Fin cfg0.N, (cfg0.win 16).flush t = true ∧ i ∈ ((cfg0.win 16).blk t).view.set := by
  have hN : cfg0.N = 32 := N_0
  have hi0 : (i 0).val < 32768 := (i 0).isLt
  have hi1 : (i 1).val < 128 := (i 1).isLt
  let t : Fin cfg0.N := ⟨(i 0).val / 1024, by omega⟩
  have ht : t.val = (i 0).val / 1024 := rfl
  refine ⟨t, flush0_16 t, ?_⟩
  rw [mem_blk16]
  obtain ⟨-, -, -, -, -, -, -, -, -, -, e0, e1⟩ := idx_facts t
  intro a
  match a with
  | ⟨0, _⟩ => show win0_16.index t (0 : Fin 2) * 1024 ≤ (i 0).val ∧ (i 0).val < win0_16.index t (0 : Fin 2) * 1024 + 1024; omega
  | ⟨1, _⟩ => show win0_16.index t (1 : Fin 2) * 128 ≤ (i 1).val ∧ (i 1).val < win0_16.index t (1 : Fin 2) * 128 + 128; omega

/-! ## The arrays after the run -/

theorem final15 (c : Dev nD) : (dats m 0 c).arrAt 15 cfg0.N = hidOut m c :=
  (dats m 0 c).arrAt_eq_of_cover 15 (hidOut m c) (fun t _ => flushed15_eq m c t) cover15

theorem final16 (c : Dev nD) : (dats m 0 c).arrAt 16 cfg0.N = memOut m c :=
  (dats m 0 c).arrAt_eq_of_cover 16 (memOut m c) (fun t _ => flushed16_eq m c t) cover16

/-- The kernel's run: the two results end as the cell's arrays of the arguments, the arguments unchanged. -/
theorem run : θ_run defs (onTc (τ := τ) (main (F := Ideal))) ⟨m, fun _ => 0, ρ⟩ fun r => ∀ c : Dev nD,
      r.2.mem ((c : Thread nD τ).loc main_v8_0) = hidOut m c
      ∧ r.2.mem ((c : Thread nD τ).loc main_v8_1) = memOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (run_blocks m ρ)

end Cert.TreeLstm.Blocks

end
-- ==== Proof.RefValue.lean ====
/-
  The reference program's two results, read at an entry, are the tree-LSTM cell of that row.

  The reference sums the eight children's hidden rows (a sum from zero over the child axis), forms each gate as
  x·W + s·U + b  with the bias row laid out over all rows, spells the logistic function out as  1 / (1 + e^{-z}) , forms
  the eight forget gates at once from one [8, 32768, 128] × [128, 128] product, and sums the forget-gated memories over
  the child axis from zero. Each stage read at an index is its operands at indices written by coordinates; the
  spelt-out logistic function is `Ideal.logistic` (the word of 1.0 is the number one), and a sum from the zero word
  is the plain sum. So the results at (r, c) are `cellC` and `cellH` of row r: `memArr` and `hidArr`.
-/
import proofs.«139234_j7456063226111_1_alg».proof.Proof.Gen.ReferenceIdeal.Run
import proofs.«139234_j7456063226111_1_alg».proof.Proof.Gen.ReferenceIdeal.Read
import proofs.«139234_j7456063226111_1_alg».proof.Proof.Spec

noncomputable section

open scoped BigOperators

namespace Cert.TreeLstm.Ref

open Cert.ReferenceIdeal Cert.ReferenceIdeal.Gen Cert.ReferenceIdeal.Read Idealize.ShloMosaic Idealize.ShloMosaic.ValueIdx
  Cert.TreeLstm

/-! ## The stages' index functions at coordinates -/

section indices

variable (r : Fin 32768) (c k : Fin 128) (n : Fin 8)

theorem i0 : idx_main_v0 (ix2 r c) n = ix3 n r c :=
  funext fun a => Fin.ext (by match a with | ⟨0, _⟩ => rfl | ⟨1, _⟩ => rfl | ⟨2, _⟩ => rfl)
theorem i45 : idx_main_v45 (ix2 r c) n = ix3 n r c :=
  funext fun a => Fin.ext (by match a with | ⟨0, _⟩ => rfl | ⟨1, _⟩ => rfl | ⟨2, _⟩ => rfl)

theorem l1 : lidx_main_v1 (ix2 r c) k = ix2 r k := funext fun a => Fin.ext (by match a with | ⟨0, _⟩ => rfl | ⟨1, _⟩ => rfl)
theorem r1 : ridx_main_v1 (ix2 r c) k = ix2 k c := funext fun a => Fin.ext (by match a with | ⟨0, _⟩ => rfl | ⟨1, _⟩ => rfl)
theorem l2 : lidx_main_v2 (ix2 r c) k = ix2 r k := funext fun a => Fin.ext (by match a with | ⟨0, _⟩ => rfl | ⟨1, _⟩ => rfl)
theorem r2 : ridx_main_v2 (ix2 r c) k = ix2 k c := funext fun a => Fin.ext (by match a with | ⟨0, _⟩ => rfl | ⟨1, _⟩ => rfl)
theorem l12 : lidx_main_v12 (ix2 r c) k = ix2 r k := funext fun a => Fin.ext (by match a with | ⟨0, _⟩ => rfl | ⟨1, _⟩ => rfl)
theorem r12 : ridx_main_v12 (ix2 r c) k = ix2 k c := funext fun a => Fin.ext (by match a with | ⟨0, _⟩ => rfl | ⟨1, _⟩ => rfl)
theorem l13 : lidx_main_v13 (ix2 r c) k = ix2 r k := funext fun a => Fin.ext (by match a with | ⟨0, _⟩ => rfl | ⟨1, _⟩ => rfl)
theorem r13 : ridx_main_v13 (ix2 r c) k = ix2 k c := funext fun a => Fin.ext (by match a with | ⟨0, _⟩ => rfl | ⟨1, _⟩ => rfl)
theorem l23 : lidx_main_v23 (ix2 r c) k = ix2 r k := funext fun a => Fin.ext (by match a with | ⟨0, _⟩ => rfl | ⟨1, _⟩ => rfl)
theorem r23 : ridx_main_v23 (ix2 r c) k = ix2 k c := funext fun a => Fin.ext (by match a with | ⟨0, _⟩ => rfl | ⟨1, _⟩ => rfl)
theorem l37 : lidx_main_v37 (ix2 r c) k = ix2 r k := funext fun a => Fin.ext (by match a with | ⟨0, _⟩ => rfl | ⟨1, _⟩ => rfl)
theorem r37 : ridx_main_v37 (ix2 r c) k = ix2 k c := funext fun a => Fin.ext (by match a with | ⟨0, _⟩ => rfl | ⟨1, _⟩ => rfl)
theorem l38 : lidx_main_v38 (ix2 r c) k = ix2 r k := funext fun a => Fin.ext (by match a with | ⟨0, _⟩ => rfl | ⟨1, _⟩ => rfl)
theorem r38 : ridx_main_v38 (ix2 r c) k = ix2 k c := funext fun a => Fin.ext (by match a with | ⟨0, _⟩ => rfl | ⟨1, _⟩ => rfl)

theorem l25 : lidx_main_v25 (ix3 n r c) k = ix3 n r k :=
  funext fun a => Fin.ext (by match a with | ⟨0, _⟩ => rfl | ⟨1, _⟩ => rfl | ⟨2, _⟩ => rfl)
theorem r25 : ridx_main_v25 (ix3 n r c) k = ix2 k c := funext fun a => Fin.ext (by match a with | ⟨0, _⟩ => rfl | ⟨1, _⟩ => rfl)

theorem i4 : idx_main_v4 (ix2 r c) = ix2 (0 : Fin 1) c := funext fun a => Fin.ext (by match a with | ⟨0, _⟩ => rfl | ⟨1, _⟩ => rfl)
theorem i15 : idx_main_v15 (ix2 r c) = ix2 (0 : Fin 1) c := funext fun a => Fin.ext (by match a with | ⟨0, _⟩ => rfl | ⟨1, _⟩ => rfl)
theorem i40 : idx_main_v40 (ix2 r c) = ix2 (0 : Fin 1) c := funext fun a => Fin.ext (by match a with | ⟨0, _⟩ => rfl | ⟨1, _⟩ => rfl)

theorem i26 : idx_main_v26 (ix3 n r c) = ix3 (0 : Fin 1) r c :=
  funext fun a => Fin.ext (by match a with | ⟨0, _⟩ => rfl | ⟨1, _⟩ => rfl | ⟨2, _⟩ => rfl)
theorem i24 : idx_main_v24 (ix3 (0 : Fin 1) r c) = ix2 r c := funext fun a => Fin.ext (by match a with | ⟨0, _⟩ => rfl | ⟨1, _⟩ => rfl)
theorem i29 : idx_main_v29 (ix3 n r c) = ix3 (0 : Fin 1) (0 : Fin 1) c :=
  funext fun a => Fin.ext (by match a with | ⟨0, _⟩ => rfl | ⟨1, _⟩ => rfl | ⟨2, _⟩ => rfl)
theorem i28 : idx_main_v28 (ix3 (0 : Fin 1) (0 : Fin 1) c) = ix2 (0 : Fin 1) c :=
  funext fun a => Fin.ext (by match a with | ⟨0, _⟩ => rfl | ⟨1, _⟩ => rfl)

end indices

/-! ## The stages -/

section stages

variable (x0 : (⟨S32768x128, .f32⟩ : BufTy).Contents (Elt Ideal)) (x1 x2 : (⟨S8x32768x128, .f32⟩ : BufTy).Contents (Elt Ideal))
  (x3 x4 x5 x6 x7 x8 x9 x10 : (⟨S128x128, .f32⟩ : BufTy).Contents (Elt Ideal))
  (x11 x12 x13 x14 : (⟨S1x128, .f32⟩ : BufTy).Contents (Elt Ideal)) (r : Fin 32768) (c : Fin 128)

/-- The summed child state at (r, k). -/
theorem sum_h (k : Fin 128) : val_main_v0 (F := Ideal) x1 (ix2 r k) = childSum (fun n k => x1 (ix3 n r k)) k := by
  rw [val_main_v0_apply, val_main_cst_apply]
  simp only [i0]
  show Ideal.ofBits .f32 0x00000000#32 + _ = _
  rw [Ideal.ofBits_zero_f32, zero_add]
  rfl

/-- What the input gate sees. -/
theorem pre_i : val_main_v5 (F := Ideal) x0 x1 x3 x7 x11 (ix2 r c)
    = gatePre (fun k => x0 (ix2 r k)) (childSum (fun n k => x1 (ix3 n r k))) x3 x7 x11 c := by
  rw [val_main_v5_apply, val_main_v3_apply, val_main_v1_apply, val_main_v2_apply, val_main_v4_apply]
  simp only [l1, r1, l2, r2, i4, sum_h]
  rfl

/-- What the output gate sees. -/
theorem pre_o : val_main_v16 (F := Ideal) x0 x1 x5 x9 x13 (ix2 r c)
    = gatePre (fun k => x0 (ix2 r k)) (childSum (fun n k => x1 (ix3 n r k))) x5 x9 x13 c := by
  rw [val_main_v16_apply, val_main_v14_apply, val_main_v12_apply, val_main_v13_apply, val_main_v15_apply]
  simp only [l12, r12, l13, r13, i15, sum_h]
  rfl

/-- What the candidate sees. -/
theorem pre_u : val_main_v41 (F := Ideal) x0 x1 x6 x10 x14 (ix2 r c)
    = gatePre (fun k => x0 (ix2 r k)) (childSum (fun n k => x1 (ix3 n r k))) x6 x10 x14 c := by
  rw [val_main_v41_apply, val_main_v39_apply, val_main_v37_apply, val_main_v38_apply, val_main_v40_apply]
  simp only [l37, r37, l38, r38, i40, sum_h]
  rfl

/-- What child n's forget gate sees. -/
theorem pre_f (n : Fin 8) : val_main_v30 (F := Ideal) x0 x1 x4 x8 x12 (ix3 n r c)
    = gatePre (fun k => x0 (ix2 r k)) (fun k => x1 (ix3 n r k)) x4 x8 x12 c := by
  rw [val_main_v30_apply, val_main_v27_apply, val_main_v26_apply, val_main_v25_apply, val_main_v29_apply, i26, i29,
    val_main_v24_apply, val_main_v28_apply, i24, i28, val_main_v23_apply]
  simp only [l23, r23, l25, r25]
  rfl

/-- The input gate. -/
theorem gate_i : val_main_v11 (F := Ideal) x0 x1 x3 x7 x11 (ix2 r c)
    = Ideal.logistic (gatePre (fun k => x0 (ix2 r k)) (childSum (fun n k => x1 (ix3 n r k))) x3 x7 x11 c) := by
  rw [val_main_v11_apply, val_main_v10_apply, val_main_cst_1_apply, val_main_v9_apply, val_main_v8_apply,
    val_main_cst_0_apply, val_main_v7_apply, val_main_v6_apply, pre_i]
  exact logistic_spelt _

/-- The output gate. -/
theorem gate_o : val_main_v22 (F := Ideal) x0 x1 x5 x9 x13 (ix2 r c)
    = Ideal.logistic (gatePre (fun k => x0 (ix2 r k)) (childSum (fun n k => x1 (ix3 n r k))) x5 x9 x13 c) := by
  rw [val_main_v22_apply, val_main_v21_apply, val_main_cst_3_apply, val_main_v20_apply, val_main_v19_apply,
    val_main_cst_2_apply, val_main_v18_apply, val_main_v17_apply, pre_o]
  exact logistic_spelt _

/-- Child n's forget gate. -/
theorem gate_f (n : Fin 8) : val_main_v36 (F := Ideal) x0 x1 x4 x8 x12 (ix3 n r c)
    = Ideal.logistic (gatePre (fun k => x0 (ix2 r k)) (fun k => x1 (ix3 n r k)) x4 x8 x12 c) := by
  rw [val_main_v36_apply, val_main_v35_apply, val_main_cst_5_apply, val_main_v34_apply, val_main_v33_apply,
    val_main_cst_4_apply, val_main_v32_apply, val_main_v31_apply, pre_f]
  exact logistic_spelt _

/-- The reference's new memory array is the cell's, entry by entry. -/
theorem mem_eq : val_main_v46 (F := Ideal) x0 x1 x2 x3 x4 x6 x7 x8 x10 x11 x12 x14
    = memArr x0 x1 x2 x3 x4 x6 x7 x8 x10 x11 x12 x14 := by
  funext i
  obtain ⟨r, c, rfl⟩ : ∃ (r : Fin 32768) (c : Fin 128), i = ix2 r c := ⟨i 0, i 1, eq_ix2 i⟩
  rw [val_main_v46_apply, val_main_v43_apply, val_main_v45_apply, val_main_cst_6_apply, gate_i, val_main_v42_apply, pre_u]
  simp only [i45, val_main_v44_apply, gate_f]
  show _ * _ + (Ideal.ofBits .f32 0x00000000#32 + _) = _
  rw [Ideal.ofBits_zero_f32, zero_add]
  rfl

/-- The reference's new hidden array is the cell's, entry by entry. -/
theorem hid_eq : val_main_v48 (F := Ideal) x0 x1 x2 x3 x4 x5 x6 x7 x8 x9 x10 x11 x12 x13 x14
    = hidArr x0 x1 x2 x3 x4 x5 x6 x7 x8 x9 x10 x11 x12 x13 x14 := by
  funext i
  obtain ⟨r, c, rfl⟩ : ∃ (r : Fin 32768) (c : Fin 128), i = ix2 r c := ⟨i 0, i 1, eq_ix2 i⟩
  rw [val_main_v48_apply, val_main_v47_apply, gate_o, mem_eq]
  rfl

end stages

end Cert.TreeLstm.Ref

end
-- ==== Proof.lean ====
/-
  A child-sum tree-LSTM cell over 32768 nodes with eight children each, as a Pallas kernel tiled over the nodes, against
  its jnp reference, on the extended reals.

  Both programs compute, for every node r and column c, the summed child state  s = Σ_n h[n, r, :] , the gates
  i, o = σ(x·W + s·U + b) , the candidate  u = tanh(x·W_u + s·U_u + b_u) , one forget gate per child
  f_n = σ(x·W_f + h[n, r, :]·U_f + b_f) , and the results  c' = i·u + Σ_n f_n·C[n, r, c]  and  h' = o·tanh c' .
  The kernel works on blocks of 1024 nodes, narrows its matrix operands to bf16 (the identity on the extended reals),
  uses the logistic operation where the reference spells  1 / (1 + e^{-z})  out, and adds the eight children's terms
  one after the other onto zero where the reference sums over the child axis; finite sums of extended reals do not
  depend on their order, so the two agree entry by entry with no use of the inputs' finiteness. The kernel side is
  read off its generated frame run block by block (Proof/Tile.lean, Proof/Cell.lean, Proof/Blocks.lean), the reference
  side off its generated run one stage at a time (Proof/RefValue.lean); both are the functions of Proof/Spec.lean.
  The three frames are the generated ones, and the idealization rewrote nothing.
-/
import proofs.«139234_j7456063226111_1_alg».proof.Defs
import proofs.«139234_j7456063226111_1_alg».proof.Proof.Gen.Kernel
import proofs.«139234_j7456063226111_1_alg».proof.Proof.Gen.Kernel.Skeleton
import proofs.«139234_j7456063226111_1_alg».proof.Proof.Gen.Kernel.Launch
import proofs.«139234_j7456063226111_1_alg».proof.Proof.Gen.Kernel.Points
import proofs.«139234_j7456063226111_1_alg».proof.Proof.Gen.Kernel.Frame
import proofs.«139234_j7456063226111_1_alg».proof.Proof.Gen.KernelIdeal
import proofs.«139234_j7456063226111_1_alg».proof.Proof.Gen.KernelIdeal.Skeleton
import proofs.«139234_j7456063226111_1_alg».proof.Proof.Gen.KernelIdeal.Launch
import proofs.«139234_j7456063226111_1_alg».proof.Proof.Gen.KernelIdeal.Points
import proofs.«139234_j7456063226111_1_alg».proof.Proof.Gen.KernelIdeal.Frame
import proofs.«139234_j7456063226111_1_alg».proof.Proof.Gen.ReferenceIdeal
import proofs.«139234_j7456063226111_1_alg».proof.Proof.Gen.Pre_finite_inputs
import proofs.«139234_j7456063226111_1_alg».proof.Proof.Gen.ReferenceIdeal.Run
import proofs.«139234_j7456063226111_1_alg».proof.Proof.Gen.ReferenceIdeal.Read
import proofs.«139234_j7456063226111_1_alg».proof.Proof.Blocks
import proofs.«139234_j7456063226111_1_alg».proof.Proof.RefValue
import Idealize.ShloMosaic.Adequacy
import Idealize.ShloMosaic.Init

noncomputable section

namespace Cert.Proof

open Idealize.ShloMosaic Idealize.SL.Sem

/-- The kernel as printed runs to its end with its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's two result arrays end as the cell's arrays of the arguments (block by block), and so do the
    reference's (stage by stage), of arguments that agree. -/
theorem algebraic : Cert.algebraic_KernelIdeal_ReferenceIdeal := by
  intro m ρ m' ρ' _ hagree
  refine ⟨_, _, Cert.TreeLstm.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v48_eq, Cert.TreeLstm.Ref.hid_eq, a0, a1, a2, a3, a4, a5, a6, a7, a8, a9, a10, a11,
      a12, a13, a14]
    rfl
  · obtain ⟨a0, a1, a2, a3, a4, a5, a6, a7, a8, a9, a10, a11, a12, a13, a14⟩ := hagree c
    rw [Cert.ReferenceIdeal.Read.val_main_v46_eq, Cert.TreeLstm.Ref.mem_eq, a0, a1, a2, a3, a4, a6, a7, a8, a10, a11, a12, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
